-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x256 : Shape := ⟨2, ![65536, 256]⟩
abbrev S256x384 : Shape := ⟨2, ![256, 384]⟩
abbrev S256 : Shape := ⟨1, ![256]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x384 .f32) (main_arg5 : FVec F S256 .f32) (main_arg6 : FVec F S256x384 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x384 .f32 := Host.absf main_arg4
  let main_cst_6 : FVec F S_ .f32 := constant S_ .f32 0x7F800000#32
  let main_v20 : FVec F S256x384 .f32 := broadcastInDim S256x384 ![] bcast_S_S256x384 main_cst_6
  let main_v21 : IVec S256x384 1 := cmpf .olt main_v19 main_v20
  let main_c_7 : IVec S_ 1 := constantI S_ 1 1#1
  let main_v22 : IVec S_ 1 := (fun x v => Host.reduce IntOp.andi x v reducesTo_S256x384_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x384 .f32 := Host.absf main_arg6
  let main_cst_10 : FVec F S_ .f32 := constant S_ .f32 0x7F800000#32
  let main_v30 : FVec F S256x384 .f32 := broadcastInDim S256x384 ![] bcast_S_S256x384 main_cst_10
  let main_v31 : IVec S256x384 1 := cmpf .olt main_v29 main_v30
  let main_c_11 : IVec S_ 1 := constantI S_ 1 1#1
  let main_v32 : IVec S_ 1 := (fun x v => Host.reduce IntOp.andi x v reducesTo_S256x384_S_d0_1 h_S_) main_v31 main_c_11
  let main_v33 : IVec S_ 1 := andi main_v28 main_v32
  fn_part2 (F := F) main_arg7 main_v33

def fn {F : FTy → Type} [FloatOps F] (main_arg0 : FVec F S65536x128 .f32) (main_arg1 : FVec F S65536x256 .f32) (main_arg2 : FVec F S256x384 .f32) (main_arg3 : FVec F S256 .f32) (main_arg4 : FVec F S256x384 .f32) (main_arg5 : FVec F S256 .f32) (main_arg6 : FVec F S256x384 .f32) (main_arg7 : FVec F S256 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x384 .f32 := Host.absf main_arg2
  let main_cst_2 : FVec F S_ .f32 := constant S_ .f32 0x7F800000#32
  let main_v10 : FVec F S256x384 .f32 := broadcastInDim S256x384 ![] bcast_S_S256x384 main_cst_2
  let main_v11 : IVec S256x384 1 := cmpf .olt main_v9 main_v10
  let main_c_3 : IVec S_ 1 := constantI S_ 1 1#1
  let main_v12 : IVec S_ 1 := (fun x v => Host.reduce IntOp.andi x v reducesTo_S256x384_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S65536x128 : Shape := ⟨2, ![65536, 128]⟩
abbrev S65536x256 : Shape := ⟨2, ![65536, 256]⟩
abbrev S256x384 : Shape := ⟨2, ![256, 384]⟩
abbrev S256 : Shape := ⟨1, ![256]⟩
abbrev S384x256 : Shape := ⟨2, ![384, 256]⟩
abbrev S128x256 : Shape := ⟨2, ![128, 256]⟩
abbrev S256x256 : Shape := ⟨2, ![256, 256]⟩
abbrev S1x256 : Shape := ⟨2, ![1, 256]⟩
abbrev S2048x128 : Shape := ⟨2, ![2048, 128]⟩
abbrev S2048x256 : Shape := ⟨2, ![2048, 256]⟩

abbrev nBuf : Space → Nat
  | .hbm => 21
  | .vmem => 15
  | .smem => 0
  | _ => 0

abbrev bufTy : (tb : Table) → Fin (tcTables nBuf tb) → BufTy
  | .hbm, ⟨0, _⟩ => ⟨S65536x128, .f32⟩
  | .hbm, ⟨1, _⟩ => ⟨S65536x256, .f32⟩
  | .hbm, ⟨2, _⟩ => ⟨S256x384, .f32⟩
  | .hbm, ⟨3, _⟩ => ⟨S256, .f32⟩
  | .hbm, ⟨4, _⟩ => ⟨S256x384, .f32⟩
  | .hbm, ⟨5, _⟩ => ⟨S256, .f32⟩
  | .hbm, ⟨6, _⟩ => ⟨S256x384, .f32⟩
  | .hbm, ⟨7, _⟩ => ⟨S256, .f32⟩
  | .hbm, ⟨8, _⟩ => ⟨S384x256, .f32⟩
  | .hbm, ⟨9, _⟩ => ⟨S128x256, .f32⟩
  | .hbm, ⟨10, _⟩ => ⟨S256x256, .f32⟩
  | .hbm, ⟨11, _⟩ => ⟨S384x256, .f32⟩
  | .hbm, ⟨12, _⟩ => ⟨S128x256, .f32⟩
  | .hbm, ⟨13, _⟩ => ⟨S256x256, .f32⟩
  | .hbm, ⟨14, _⟩ => ⟨S384x256, .f32⟩
  | .hbm, ⟨15, _⟩ => ⟨S128x256, .f32⟩
  | .hbm, ⟨16, _⟩ => ⟨S256x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S65536x256, .f32⟩
  | .local _ .vmem, ⟨0, _⟩ => ⟨S2048x128, .f32⟩
  | .local _ .vmem, ⟨1, _⟩ => ⟨S2048x128, .f32⟩
  | .local _ .vmem, ⟨2, _⟩ => ⟨S2048x256, .f32⟩
  | .local _ .vmem, ⟨3, _⟩ => ⟨S2048x256, .f32⟩
  | .local _ .vmem, ⟨4, _⟩ => ⟨S128x256, .f32⟩
  | .local _ .vmem, ⟨5, _⟩ => ⟨S256x256, .f32⟩
  | .local _ .vmem, ⟨6, _⟩ => ⟨S128x256, .f32⟩
  | .local _ .vmem, ⟨7, _⟩ => ⟨S256x256, .f32⟩
  | .local _ .vmem, ⟨8, _⟩ => ⟨S128x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2048x256, .f32⟩
  | .local _ .vmem, ⟨14, _⟩ => ⟨S2048x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S256x384_S384x256_1_0 : S256x384.Transposes [1, 0] S384x256
  slices_S384x256_S128x256_0_0 : S384x256.Slices ![0, 0] S128x256
  slices_S384x256_S256x256_128_0 : S384x256.Slices ![128, 0] S256x256
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S65536x256.size a
  hwx0_11 : ∀ i : grid0.Coords, EltTy.bits .f32 = 32 ∨ (Rect.block (s := S65536x256) S2048x256.size (cc0_transform_11 i) (hinb0_11 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S2048x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x256 : Shape := ⟨2, ![65536, 256]⟩
abbrev S256x384 : Shape := ⟨2, ![256, 384]⟩
abbrev S256 : Shape := ⟨1, ![256]⟩
abbrev S65536x384 : Shape := ⟨2, ![65536, 384]⟩
abbrev S384x256 : Shape := ⟨2, ![384, 256]⟩
abbrev S1x256 : Shape := ⟨2, ![1, 256]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x256, .f32⟩
  | .hbm, ⟨2, _⟩ => ⟨S256x384, .f32⟩
  | .hbm, ⟨3, _⟩ => ⟨S256, .f32⟩
  | .hbm, ⟨4, _⟩ => ⟨S256x384, .f32⟩
  | .hbm, ⟨5, _⟩ => ⟨S256, .f32⟩
  | .hbm, ⟨6, _⟩ => ⟨S256x384, .f32⟩
  | .hbm, ⟨7, _⟩ => ⟨S256, .f32⟩
  | .hbm, ⟨8, _⟩ => ⟨S65536x384, .f32⟩
  | .hbm, ⟨9, _⟩ => ⟨S384x256, .f32⟩
  | .hbm, ⟨10, _⟩ => ⟨S65536x256, .f32⟩
  | .hbm, ⟨11, _⟩ => ⟨S1x256, .f32⟩
  | .hbm, ⟨12, _⟩ => ⟨S65536x256, .f32⟩
  | .hbm, ⟨13, _⟩ => ⟨S65536x256, .f32⟩
  | .hbm, ⟨14, _⟩ => ⟨S_, .f32⟩
  | .hbm, ⟨15, _⟩ => ⟨S65536x256, .f32⟩
  | .hbm, ⟨16, _⟩ => ⟨S65536x256, .f32⟩
  | .hbm, ⟨17, _⟩ => ⟨S_, .f32⟩
  | .hbm, ⟨18, _⟩ => ⟨S65536x256, .f32⟩
  | .hbm, ⟨19, _⟩ => ⟨S65536x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S384x256, .f32⟩
  | .hbm, ⟨29, _⟩ => ⟨S65536x256, .f32⟩
  | .hbm, ⟨30, _⟩ => ⟨S1x256, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S_, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S_, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x384, .f32⟩
  | .hbm, ⟨49, _⟩ => ⟨S384x256, .f32⟩
  | .hbm, ⟨50, _⟩ => ⟨S65536x256, .f32⟩
  | .hbm, ⟨51, _⟩ => ⟨S1x256, .f32⟩
  | .hbm, ⟨52, _⟩ => ⟨S65536x256, .f32⟩
  | .hbm, ⟨53, _⟩ => ⟨S65536x256, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S65536x256, .f32⟩
  | .hbm, ⟨58, _⟩ => ⟨S65536x256, .f32⟩
  | .hbm, ⟨59, _⟩ => ⟨S_, .f32⟩
  | .hbm, ⟨60, _⟩ => ⟨S65536x256, .f32⟩
  | .hbm, ⟨61, _⟩ => ⟨S65536x256, .f32⟩
  | .hbm, ⟨62, _⟩ => ⟨S65536x256, .f32⟩
  | .hbm, ⟨63, _⟩ => ⟨S_, .f32⟩
  | .hbm, ⟨64, _⟩ => ⟨S65536x256, .f32⟩
  | .hbm, ⟨65, _⟩ => ⟨S65536x256, .f32⟩
  | .hbm, ⟨66, _⟩ => ⟨S65536x256, .f32⟩
  | .hbm, ⟨67, _⟩ => ⟨S65536x256, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_7 : Ref sig .tc := ⟨.hbm, 54, rfl⟩
abbrev main_cst_8 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v28 : Ref sig .tc := ⟨.hbm, 61, rfl⟩
abbrev main_v29 : Ref sig .tc := ⟨.hbm, 62, rfl⟩
abbrev main_cst_9 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩

abbrev nD : Nat := 1
abbrev τ : Topo := Topo.v7x

variable {F : FTy → Type} [FloatOps F]

class Facts₀ : Prop where
  concatenates_S65536x128_S65536x256_S65536x384_d1 : Shape.Concatenates [S65536x128, S65536x256] S65536x384 1
  transposes_S256x384_S384x256_1_0 : S256x384.Transposes [1, 0] S384x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S65536x384_S384x256_S65536x256_1_0_0_1_n_n_wf : DotDims.WF S65536x384 S384x256 S65536x256 [1] [0] [0] [1] [] []

variable [Facts₀]

def dot_S65536x384_S384x256_S65536x256_1_0_0_1_n_n : DotDims S65536x384 S384x256 S65536x256 where
  lhsContracting := [1]
  rhsContracting := [0]
  lhsNonContracting := [0]
  rhsNonContracting := [1]
  lhsBatch := []
  rhsBatch := []
  wf := dot_S65536x384_S384x256_S65536x256_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Cell.lean ====
/-
  ONE STEP OF A GATED RECURRENT CELL, ENTRY BY ENTRY, ON THE EXTENDED REALS.

  For a batch of rows, an input row x(r, ·) of width 128 and a state row h(r, ·) of width 256, each of the three
  gates applies an affine map whose weight W has 256 rows of width 384 = 128 + 256: the first 128 columns of row j
  meet the input, the last 256 meet the state. With the weight's two column ranges laid out as matrices
  wx(k, j) = W(j, k) and wh(k, j) = W(j, 128 + k),

      affine(x, g, wx, wh, b)(r, j) = Σ_{k<128} x(r, k) · wx(k, j) + Σ_{k<256} g(r, k) · wh(k, j) + b(j).

  The update gate z and the reset gate ρ clamp  v / 6 + 1/2  to [0, 1]; the candidate is the affine map of the
  input and of ρ ⊙ h, clamped to [-1, 1]; the new state is  z · h + (1 - z) · candidate.

  Every entry of row r depends on row r of x and of h only, so the cell of a block of consecutive rows is the
  block of the cell (`cell_rows`). A sum over the 384 columns is the sum over the first 128 plus the sum over
  the last 256 (`sum_columns`): addition of extended reals is commutative and associative, so no finiteness is
  needed anywhere.
-/
import Idealize.ShloMosaic.Lib.ValueIdx
import Idealize.ShloMosaic.PureOps.Ideal

open scoped BigOperators

noncomputable section

namespace Cert.Gru

open Idealize.ShloMosaic Idealize.ShloMosaic.ValueIdx

/-- A matrix of extended reals with `a` rows and `b` columns. -/
abbrev Mat (a b : Nat) : Type := (⟨2, ![a, b]⟩ : Shape).Idx → EReal

/-- A vector of extended reals of length `a`. -/
abbrev Row (a : Nat) : Type := (⟨1, ![a]⟩ : Shape).Idx → EReal

/-- v ↦ min(1, max(0, v / 6 + 1/2)), the constants as their binary words. -/
def hardSigmoid (v : EReal) : EReal :=
  min (Ideal.ofBits .f32 0x3F800000#32)
    (max (Ideal.ofBits .f32 0x00000000#32) (Ideal.div v (Ideal.ofBits .f32 0x40C00000#32) + Ideal.ofBits .f32 0x3F000000#32))

/-- v ↦ min(1, max(-1, v)). -/
def hardTanh (v : EReal) : EReal :=
  min (Ideal.ofBits .f32 0x3F800000#32) (max (Ideal.ofBits .f32 0xBF800000#32) v)

variable {n : Nat}

/-- One gate's affine map at row `r` and column `j`: the input part, the state part, the bias. -/
def affine (x : Mat n 128) (g : Mat n 256) (wx : Mat 128 256) (wh : Mat 256 256) (b : Mat 1 256)
    (r : Fin n) (j : Fin 256) : EReal :=
  (∑ k : Fin 128, x (ix2 r k) * wx (ix2 k j)) + (∑ k : Fin 256, g (ix2 r k) * wh (ix2 k j)) + b (ix2 (0 : Fin 1) j)

/-- The new state at row `r` and column `j`. -/
def cell (x : Mat n 128) (h : Mat n 256) (wzx : Mat 128 256) (wzh : Mat 256 256) (wrx : Mat 128 256) (wrh : Mat 256 256)
    (whx : Mat 128 256) (whh : Mat 256 256) (bz br bh : Mat 1 256) (r : Fin n) (j : Fin 256) : EReal :=
  hardSigmoid (affine x h wzx wzh bz r j) * h (ix2 r j)
    + (Ideal.ofBits .f32 0x3F800000#32 - hardSigmoid (affine x h wzx wzh bz r j))
      * hardTanh (affine x (fun i => hardSigmoid (affine x h wrx wrh br (i 0) (i 1)) * h i) whx whh bh r j)

/-- Rows `ρ 0, ρ 1, …` of a taller matrix, as a matrix. -/
def rows {N w : Nat} (ρ : Fin n → Fin N) (a : Mat N w) : Mat n w := fun i => a (ix2 (ρ (i 0)) (i 1))

/-- The cell of selected rows is the selected rows of the cell: row `r` of the result reads row `r` of x and h only. -/
theorem cell_rows {N : Nat} (ρ : Fin n → Fin N) (x : Mat N 128) (h : Mat N 256) (wzx : Mat 128 256) (wzh : Mat 256 256)
    (wrx : Mat 128 256) (wrh : Mat 256 256) (whx : Mat 128 256) (whh : Mat 256 256) (bz br bh : Mat 1 256)
    (r : Fin n) (j : Fin 256) :
    cell (rows ρ x) (rows ρ h) wzx wzh wrx wrh whx whh bz br bh r j = cell x h wzx wzh wrx wrh whx whh bz br bh (ρ r) j := rfl

/-! ## The weight's two column ranges -/

/-- Column `k` of the first 128. -/
def inCol (k : Fin 128) : Fin 384 := ⟨k.val, by omega⟩
/-- Column `128 + k` of the last 256. -/
def hidCol (k : Fin 256) : Fin 384 := ⟨128 + k.val, by omega⟩

/-- wx(k, j) = W(j, k). -/
def wIn (W : Mat 256 384) : Mat 128 256 := fun i => W (ix2 (i 1) (inCol (i 0)))
/-- wh(k, j) = W(j, 128 + k). -/
def wHid (W : Mat 256 384) : Mat 256 256 := fun i => W (ix2 (i 1) (hidCol (i 0)))
/-- A bias vector as a one-row matrix. -/
def bRow (b : Row 256) : Mat 1 256 := fun i => b (ix1 (i 1))

/-- A sum over the 384 columns: the first 128, then the last 256. -/
theorem sum_columns (f : Fin 384 → EReal) :
    ∑ k : Fin 384, f k = (∑ k : Fin 128, f (inCol k)) + ∑ k : Fin 256, f (hidCol k) :=
  Fin.sum_univ_add (a := 128) (b := 256) (f : Fin (128 + 256) → EReal)

/-- The cell on the whole batch, from the arguments as given: three weights of 256 × 384, three biases of 256. -/
def gru (x : Mat 65536 128) (h : Mat 65536 256) (Wz : Mat 256 384) (bz : Row 256) (Wr : Mat 256 384) (br : Row 256)
    (Wh : Mat 256 384) (bh : Row 256) : Mat 65536 256 :=
  fun i => cell x h (wIn Wz) (wHid Wz) (wIn Wr) (wHid Wr) (wIn Wh) (wHid Wh) (bRow bz) (bRow br) (bRow bh) (i 0) (i 1)

end Cert.Gru

end
-- ==== Proof.BlockValue.lean ====
/-
  WHAT ONE GRID POINT COMPUTES. The kernel body at a grid point holds a block of 2048 input rows, the matching 2048
  state rows, the six weight parts (input part 128 × 256 and state part 256 × 256 of each gate) and the three biases
  as one-row matrices. Each gate's pre-activation is a product with the input part plus a product with the state
  part plus the bias row repeated down the block; a product into the zero accumulator is, entry by entry, the sum
  over the contracted coordinate, and narrowing a float to sixteen bits changes nothing on the extended reals.
  So the block the body stores is the cell (Cell.lean) of the blocks it loaded, entry by entry.
-/
import proofs.«167779_j69947837383038_1_alg».proof.Proof.Gen.KernelIdeal.Frame
import proofs.«167779_j69947837383038_1_alg».proof.Proof.LibPlainMatmul
import proofs.«167779_j69947837383038_1_alg».proof.Proof.Cell
import Idealize.ShloMosaic.Lib.Pipeline.Value
import Idealize.ShloMosaic.PureOps.Ideal.Laws

open scoped BigOperators

noncomputable section

namespace Cert.KernelIdeal.Block

open Cert.KernelIdeal Cert.KernelIdeal.Gen Idealize.ShloMosaic Idealize.ShloMosaic.ValueIdx Cert.Gru

theorem origin : (![0, 0] : Fin 2 → Nat) = fun _ => 0 := funext fun a => by fin_cases a <;> rfl

/-- A block of rows against a weight's input part, entry (p, q): the sum over the 128 input columns. -/
theorem inputProduct {φ₁ φ₂ : FTy} (A : FVec Ideal S2048x128 φ₁) (B : FVec Ideal S128x256 φ₂) (p : Fin 2048) (q : Fin 256) :
    matmul dot_S2048x128_S128x256_S2048x256_1_0_0_1_n_n none A B (constant S2048x256 .f32 0x00000000#32) (ix2 p q)
      = ∑ k : Fin 128, A (ix2 p k) * B (ix2 k q) :=
  PlainMatmul.matmul_zero_apply _ dot_S2048x128_S128x256_S2048x256_1_0_0_1_n_n.wf rfl none A B p q

/-- A block of rows against a weight's state part, entry (p, q): the sum over the 256 state columns. -/
theorem stateProduct {φ₁ φ₂ : FTy} (A : FVec Ideal S2048x256 φ₁) (B : FVec Ideal S256x256 φ₂) (p : Fin 2048) (q : Fin 256) :
    matmul dot_S2048x256_S256x256_S2048x256_1_0_0_1_n_n none A B (constant S2048x256 .f32 0x00000000#32) (ix2 p q)
      = ∑ k : Fin 256, A (ix2 p k) * B (ix2 k q) :=
  PlainMatmul.matmul_zero_apply _ dot_S2048x256_S256x256_S2048x256_1_0_0_1_n_n.wf rfl none A B p q

/-- A one-row matrix repeated down the block, entry (p, q): the row's entry q. -/
theorem biasRows (b : FVec Ideal S1x256 .f32) (p : Fin 2048) (q : Fin 256) :
    broadcastTo S2048x256 b broadcasts_S1x256_S2048x256 (ix2 p q) = b (ix2 (0 : Fin 1) q) :=
  broadcastTo_apply b broadcasts_S1x256_S2048x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The update gate's pre-activation as the body computes it. -/
theorem updateLinear (x : Vec Ideal S2048x128 .f32) (h : Vec Ideal S2048x256 .f32) (wx : Vec Ideal S128x256 .f32)
    (wh : Vec Ideal S256x256 .f32) (b : Vec Ideal S1x256 .f32) (p : Fin 2048) (q : Fin 256) :
    k0_pay9 x h wx wh b (ix2 p q) = affine x h wx wh b p q := by
  unfold k0_pay9 k0_pay2 k0_pay3
  simp only [shapeCast_self]
  show (matmul (F := Ideal) dot_S2048x128_S128x256_S2048x256_1_0_0_1_n_n none (truncf .bf16 x bitsLt_bf16_f32) (truncf .bf16 wx bitsLt_bf16_f32) (constant S2048x256 .f32 0x00000000#32) (ix2 p q) : EReal)
      + matmul (F := Ideal) dot_S2048x256_S256x256_S2048x256_1_0_0_1_n_n none (truncf .bf16 h bitsLt_bf16_f32) (truncf .bf16 wh bitsLt_bf16_f32) (constant S2048x256 .f32 0x00000000#32) (ix2 p q)
      + broadcastTo S2048x256 b broadcasts_S1x256_S2048x256 (ix2 p q) = _
  rw [inputProduct, stateProduct, biasRows]
  rfl

/-- The stored value entry by entry, over the two pre-activations the body has already formed (the update gate's whole,
    the reset gate's input part): the products and the bias rows of the rest still as the body spells them. -/
theorem blend_entry (h : Vec Ideal S2048x256 .f32) (xb : FVec Ideal S2048x128 .bf16) (hb : FVec Ideal S2048x256 .bf16)
    (wrh : FVec Ideal S256x256 .bf16) (whx : FVec Ideal S128x256 .bf16) (whh : FVec Ideal S256x256 .bf16)
    (br bh : FVec Ideal S1x256 .f32) (zlin rx : FVec Ideal S2048x256 .f32) (p : Fin 2048) (q : Fin 256) :
    k0_pay1 h xb hb wrh whx whh br bh zlin rx (ix2 p q)
      = hardSigmoid (zlin (ix2 p q)) * h (ix2 p q)
        + (Ideal.ofBits .f32 0x3F800000#32 - hardSigmoid (zlin (ix2 p q)))
          * hardTanh ((matmul (F := Ideal) dot_S2048x128_S128x256_S2048x256_1_0_0_1_n_n none xb whx (constant S2048x256 .f32 0x00000000#32) (ix2 p q) : EReal)
              + matmul (F := Ideal) (φ₁ := .bf16) dot_S2048x256_S256x256_S2048x256_1_0_0_1_n_n none
                  (fun i => hardSigmoid ((rx i : EReal)
                      + matmul (F := Ideal) dot_S2048x256_S256x256_S2048x256_1_0_0_1_n_n none hb wrh (constant S2048x256 .f32 0x00000000#32) i
                      + broadcastTo S2048x256 br broadcasts_S1x256_S2048x256 i) * h i)
                  whh (constant S2048x256 .f32 0x00000000#32) (ix2 p q)
              + broadcastTo S2048x256 bh broadcasts_S1x256_S2048x256 (ix2 p q)) := rfl

/-- THE BLOCK THE BODY STORES is the cell of the blocks it loaded: input rows, state rows, the six weight parts, the
    three bias rows. -/
theorem stored (x0 : Vec Ideal S2048x128 .f32) (x1 : Vec Ideal S2048x256 .f32) (x2 : Vec Ideal S128x256 .f32)
    (x3 : Vec Ideal S256x256 .f32) (x4 : Vec Ideal S128x256 .f32) (x5 : Vec Ideal S256x256 .f32) (x6 : Vec Ideal S128x256 .f32)
    (x7 : Vec Ideal S256x256 .f32) (x8 x9 x10 : Vec Ideal S1x256 .f32) (p : Fin 2048) (q : Fin 256) :
    out0_11 x0 x1 x2 x3 x4 x5 x6 x7 x8 x9 x10 (ix2 p q) = cell x0 x1 x2 x3 x4 x5 x6 x7 x8 x9 x10 p q := by
  unfold out0_11
  rw [View.canon_unit_zero origin]
  simp only [View.ld_unit_zero (S := S2048x128) origin, View.ld_unit_zero (S := S2048x256) origin,
    View.ld_unit_zero (S := S128x256) origin, View.ld_unit_zero (S := S256x256) origin, View.ld_unit_zero (S := S1x256) origin]
  rw [blend_entry, updateLinear]
  unfold k0_pay10 k0_pay2 k0_pay3 k0_pay4 k0_pay5 k0_pay6 k0_pay7 k0_pay8
  simp only [shapeCast_self, inputProduct, stateProduct, biasRows]
  rfl

end Cert.KernelIdeal.Block

end
-- ==== Proof.HostParts.lean ====
/-
  WHAT THE KERNEL FINDS IN ITS WEIGHT AND BIAS WINDOWS. Before the kernel runs, each weight W (256 × 384) is transposed
  and cut at row 128 into its input part (rows 0 … 127 of the transpose) and its state part (rows 128 … 383), and each
  bias vector is reshaped to a one-row matrix. Entry (k, j) of the input part is W(j, k), entry (k, j) of the state part
  is W(j, 128 + k), and entry (0, j) of the bias row is b(j): the matrices `wIn W`, `wHid W`, `bRow b` of Cell.lean.
-/
import proofs.«167779_j69947837383038_1_alg».proof.Proof.Gen.KernelIdeal.Frame
import proofs.«167779_j69947837383038_1_alg».proof.Proof.Cell
import Idealize.ShloMosaic.Lib.Pipeline.Value
import Idealize.ShloMosaic.Lib.StableHlo.Run

noncomputable section

namespace Cert.KernelIdeal.HostParts

open Cert.KernelIdeal Cert.KernelIdeal.Gen Idealize.ShloMosaic Idealize.ShloMosaic.TcCoe Idealize.ShloMosaic.ValueIdx Idealize.SL.Sem
open Idealize.ShloMosaic.StableHlo Cert.Gru

/-- The transpose of a weight cut to its first 128 rows: the input part. -/
theorem inputPart (W : FVec Ideal S256x384 .f32) :
    extractStridedSlice S128x256 ![0, 0] (transpose S384x256 [1, 0] W transposes_S256x384_S384x256_1_0) slices_S384x256_S128x256_0_0
      = wIn W := by
  funext i
  obtain ⟨k, j, rfl⟩ : ∃ (k : Fin 128) (j : Fin 256), i = ix2 k j := ⟨i 0, i 1, eq_ix2 i⟩
  rw [extractStridedSlice_apply ![0, 0] _ slices_S384x256_S128x256_0_0 (ix2 k j) (ix2 (inCol k) j) (fun a => match a with
    | ⟨0, _⟩ => by show k.val = 0 + k.val; omega
    | ⟨1, _⟩ => by show j.val = 0 + j.val; omega)]
  exact transpose_apply [1, 0] W transposes_S256x384_S384x256_1_0 (ix2 (inCol k) j) (ix2 j (inCol k)) (fun b => match b with
    | ⟨0, _⟩ => rfl
    | ⟨1, _⟩ => rfl)

/-- The transpose of a weight cut to its last 256 rows: the state part. -/
theorem statePart (W : FVec Ideal S256x384 .f32) :
    extractStridedSlice S256x256 ![128, 0] (transpose S384x256 [1, 0] W transposes_S256x384_S384x256_1_0) slices_S384x256_S256x256_128_0
      = wHid W := by
  funext i
  obtain ⟨k, j, rfl⟩ : ∃ (k : Fin 256) (j : Fin 256), i = ix2 k j := ⟨i 0, i 1, eq_ix2 i⟩
  rw [extractStridedSlice_apply ![128, 0] _ slices_S384x256_S256x256_128_0 (ix2 k j) (ix2 (hidCol k) j) (fun a => match a with
    | ⟨0, _⟩ => rfl
    | ⟨1, _⟩ => by show j.val = 0 + j.val; omega)]
  exact transpose_apply [1, 0] W transposes_S256x384_S384x256_1_0 (ix2 (hidCol k) j) (ix2 j (hidCol k)) (fun b => match b with
    | ⟨0, _⟩ => rfl
    | ⟨1, _⟩ => rfl)

/-- A bias vector reshaped to one row. -/
theorem biasPart (b : FVec Ideal S256 .f32) : shapeCast S1x256 b shapeCasts_S256_S1x256 = bRow b := by
  funext i
  obtain ⟨z, j, rfl⟩ : ∃ (z : Fin 1) (j : Fin 256), i = ix2 z j := ⟨i 0, i 1, eq_ix2 i⟩
  rw [shapeCast_addUnit_apply ![256] b shapeCasts_S256_S1x256 (ix2 z j)]
  exact congrArg b (funext fun a => match a with | ⟨0, _⟩ => rfl)

variable (m : (ℓ : Loc nD τ sig) → Buf (Elt Ideal) ℓ)

/-- Window 2: the update gate's input part. -/
theorem V_main_v1 (c : Dev nD) : (V m c main_v1 : S128x256.Idx → EReal) = wIn (m ((c : Thread nD τ).loc main_arg2)) := by
  rw [← inputPart]
  dsimp only [Gen.V, Gen.hostOps0]; after_results

/-- Window 3: the update gate's state part. -/
theorem V_main_v2 (c : Dev nD) : (V m c main_v2 : S256x256.Idx → EReal) = wHid (m ((c : Thread nD τ).loc main_arg2)) := by
  rw [← statePart]
  dsimp only [Gen.V, Gen.hostOps0]; after_results

/-- Window 4: the reset gate's input part. -/
theorem V_main_v4 (c : Dev nD) : (V m c main_v4 : S128x256.Idx → EReal) = wIn (m ((c : Thread nD τ).loc main_arg4)) := by
  rw [← inputPart]
  dsimp only [Gen.V, Gen.hostOps0]; after_results

/-- Window 5: the reset gate's state part. -/
theorem V_main_v5 (c : Dev nD) : (V m c main_v5 : S256x256.Idx → EReal) = wHid (m ((c : Thread nD τ).loc main_arg4)) := by
  rw [← statePart]
  dsimp only [Gen.V, Gen.hostOps0]; after_results

/-- Window 6: the candidate's input part. -/
theorem V_main_v7 (c : Dev nD) : (V m c main_v7 : S128x256.Idx → EReal) = wIn (m ((c : Thread nD τ).loc main_arg6)) := by
  rw [← inputPart]
  dsimp only [Gen.V, Gen.hostOps0]; after_results

/-- Window 7: the candidate's state part. -/
theorem V_main_v8 (c : Dev nD) : (V m c main_v8 : S256x256.Idx → EReal) = wHid (m ((c : Thread nD τ).loc main_arg6)) := by
  rw [← statePart]
  dsimp only [Gen.V, Gen.hostOps0]; after_results

/-- Window 8: the update gate's bias row. -/
theorem V_main_v9 (c : Dev nD) : (V m c main_v9 : S1x256.Idx → EReal) = bRow (m ((c : Thread nD τ).loc main_arg3)) := by
  rw [← biasPart]
  dsimp only [Gen.V, Gen.hostOps0]; after_results; rfl

/-- Window 9: the reset gate's bias row. -/
theorem V_main_v10 (c : Dev nD) : (V m c main_v10 : S1x256.Idx → EReal) = bRow (m ((c : Thread nD τ).loc main_arg5)) := by
  rw [← biasPart]
  dsimp only [Gen.V, Gen.hostOps0]; after_results; rfl

/-- Window 10: the candidate's bias row. -/
theorem V_main_v11 (c : Dev nD) : (V m c main_v11 : S1x256.Idx → EReal) = bRow (m ((c : Thread nD τ).loc main_arg7)) := by
  rw [← biasPart]
  dsimp only [Gen.V, Gen.hostOps0]; after_results; rfl

end Cert.KernelIdeal.HostParts

end
-- ==== Proof.KernelValue.lean ====
/-
  THE KERNEL'S RESULT ARRAY. The grid has 32 points; point t stages rows 2048·t … 2048·t + 2047 of the inputs and of the
  state, the whole of each weight part and bias row, and writes back rows 2048·t … 2048·t + 2047 of the result. What it
  writes is the cell of what it staged (BlockValue.lean), and the cell of a block of rows is the block of the cell
  (Cell.lean), so point t writes block t of `gru` of the argument arrays. The 32 blocks tile the 65536 rows (row r is in
  block r / 2048), so the array after the run is `gru` of the arguments.
-/
import proofs.«167779_j69947837383038_1_alg».proof.Proof.Gen.KernelIdeal.Value
import proofs.«167779_j69947837383038_1_alg».proof.Proof.BlockValue
import proofs.«167779_j69947837383038_1_alg».proof.Proof.HostParts

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.Gru

variable (m : (ℓ : Loc nD τ sig) → Buf (Elt Ideal) ℓ) (ρ : Dev nD → PrngReg)

/-- The printed index maps over the grid: the two batch-sized inputs and the output move one block of rows per point,
    every weight part and bias row stays at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Row p of point t's block is row 2048·t + p of the batch. -/
def blockRow (t : Fin cfg0.N) (p : Fin 2048) : Fin 65536 :=
  ⟨t.val * 2048 + p.val, by have ht : t.val < 32 := lt_of_lt_of_eq t.isLt N_0; have := p.isLt; omega⟩

/-- Point t's block of input rows. -/
theorem inputBlock (c : Dev nD) (t : Fin cfg0.N) :
    (iblk m c 0 t : Vec Ideal S2048x128 .f32) = rows (blockRow t) (m ((c : Thread nD τ).loc main_arg0)) := by
  funext y
  show V m c main_arg0 (((cfg0.win 0).blk t).view.emb y) = m ((c : Thread nD τ).loc main_arg0) (ix2 (blockRow t (y 0)) (y 1))
  rw [V_main_arg0]
  obtain ⟨⟨e0, e1⟩, -⟩ := idx_facts t
  refine congrArg _ (funext fun a => Fin.ext ?_)
  match a with
  | ⟨0, _⟩ => show win0_0.index t (0 : Fin 2) * 2048 + 1 * (y 0).val = t.val * 2048 + (y 0).val; rw [e0]; omega
  | ⟨1, _⟩ => show win0_0.index t (1 : Fin 2) * 128 + 1 * (y 1).val = (y 1).val; rw [e1]; omega

/-- Point t's block of state rows. -/
theorem stateBlock (c : Dev nD) (t : Fin cfg0.N) :
    (iblk m c 1 t : Vec Ideal S2048x256 .f32) = rows (blockRow t) (m ((c : Thread nD τ).loc main_arg1)) := by
  funext y
  show V m c main_arg1 (((cfg0.win 1).blk t).view.emb y) = m ((c : Thread nD τ).loc main_arg1) (ix2 (blockRow t (y 0)) (y 1))
  rw [V_main_arg1]
  obtain ⟨-, ⟨e0, e1⟩, -⟩ := idx_facts t
  refine congrArg _ (funext fun a => Fin.ext ?_)
  match a with
  | ⟨0, _⟩ => show win0_1.index t (0 : Fin 2) * 2048 + 1 * (y 0).val = t.val * 2048 + (y 0).val; rw [e0]; omega
  | ⟨1, _⟩ => show win0_1.index t (1 : Fin 2) * 256 + 1 * (y 1).val = (y 1).val; rw [e1]; omega

/-- Every point stages the whole of each weight part and bias row. -/
theorem block2 (c : Dev nD) (t : Fin cfg0.N) : (iblk m c 2 t : Vec Ideal S128x256 .f32) = wIn (m ((c : Thread nD τ).loc main_arg2)) := by
  rw [← HostParts.V_main_v1 m c]
  funext y
  show V m c main_v1 (((cfg0.win 2).blk t).view.emb y) = V m c main_v1 y
  obtain ⟨-, -, ⟨e0, e1⟩, -⟩ := idx_facts t
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega
theorem block3 (c : Dev nD) (t : Fin cfg0.N) : (iblk m c 3 t : Vec Ideal S256x256 .f32) = wHid (m ((c : Thread nD τ).loc main_arg2)) := by
  rw [← HostParts.V_main_v2 m c]
  funext y
  show V m c main_v2 (((cfg0.win 3).blk t).view.emb y) = V m c main_v2 y
  obtain ⟨-, -, -, ⟨e0, e1⟩, -⟩ := idx_facts t
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega
theorem block4 (c : Dev nD) (t : Fin cfg0.N) : (iblk m c 4 t : Vec Ideal S128x256 .f32) = wIn (m ((c : Thread nD τ).loc main_arg4)) := by
  rw [← HostParts.V_main_v4 m c]
  funext y
  show V m c main_v4 (((cfg0.win 4).blk t).view.emb y) = V m c main_v4 y
  obtain ⟨-, -, -, -, ⟨e0, e1⟩, -⟩ := idx_facts t
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega
theorem block5 (c : Dev nD) (t : Fin cfg0.N) : (iblk m c 5 t : Vec Ideal S256x256 .f32) = wHid (m ((c : Thread nD τ).loc main_arg4)) := by
  rw [← HostParts.V_main_v5 m c]
  funext y
  show V m c main_v5 (((cfg0.win 5).blk t).view.emb y) = V m c main_v5 y
  obtain ⟨-, -, -, -, -, ⟨e0, e1⟩, -⟩ := idx_facts t
  refine congrArg _ (funext fun a => Fin.ext ?_)
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega
theorem block6 (c : Dev nD) (t : Fin cfg0.N) : (iblk m c 6 t : Vec Ideal S128x256 .f32) = wIn (m ((c : Thread nD τ).loc main_arg6)) := by
  rw [← HostParts.V_main_v7 m c]
  funext y
  show V m c main_v7 (((cfg0.win 6).blk t).view.emb y) = V m c main_v7 y
  obtain ⟨-, -, -, -, -, -, ⟨e0, e1⟩, -⟩ := idx_facts t
  refine congrArg _ (funext fun a => Fin.ext ?_)
  match a with
  | ⟨0, _⟩ => show win0_6.index t (0 : Fin 2) * 128 + 1 * (y 0).val = (y 0).val; rw [e0]; omega
  | ⟨1, _⟩ => show win0_6.index t (1 : Fin 2) * 256 + 1 * (y 1).val = (y 1).val; rw [e1]; omega
theorem block7 (c : Dev nD) (t : Fin cfg0.N) : (iblk m c 7 t : Vec Ideal S256x256 .f32) = wHid (m ((c : Thread nD τ).loc main_arg6)) := by
  rw [← HostParts.V_main_v8 m c]
  funext y
  show V m c main_v8 (((cfg0.win 7).blk t).view.emb y) = V m c main_v8 y
  obtain ⟨-, -, -, -, -, -, -, ⟨e0, e1⟩, -⟩ := idx_facts t
  refine congrArg _ (funext fun a => Fin.ext ?_)
  match a with
  | ⟨0, _⟩ => show win0_7.index t (0 : Fin 2) * 256 + 1 * (y 0).val = (y 0).val; rw [e0]; omega
  | ⟨1, _⟩ => show win0_7.index t (1 : Fin 2) * 256 + 1 * (y 1).val = (y 1).val; rw [e1]; omega
theorem block8 (c : Dev nD) (t : Fin cfg0.N) : (iblk m c 8 t : Vec Ideal S1x256 .f32) = bRow (m ((c : Thread nD τ).loc main_arg3)) := by
  rw [← HostParts.V_main_v9 m c]
  funext y
  show V m c main_v9 (((cfg0.win 8).blk t).view.emb y) = V m c main_v9 y
  obtain ⟨-, -, -, -, -, -, -, -, ⟨e0, e1⟩, -⟩ := idx_facts t
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega
theorem block9 (c : Dev nD) (t : Fin cfg0.N) : (iblk m c 9 t : Vec Ideal S1x256 .f32) = bRow (m ((c : Thread nD τ).loc main_arg5)) := by
  rw [← HostParts.V_main_v10 m c]
  funext y
  show V m c main_v10 (((cfg0.win 9).blk t).view.emb y) = V m c main_v10 y
  obtain ⟨-, -, -, -, -, -, -, -, -, ⟨e0, e1⟩, -⟩ := idx_facts t
  refine congrArg _ (funext fun a => Fin.ext ?_)
  match a with
  | ⟨0, _⟩ => show win0_9.index t (0 : Fin 2) * 1 + 1 * (y 0).val = (y 0).val; rw [e0]; omega
  | ⟨1, _⟩ => show win0_9.index t (1 : Fin 2) * 256 + 1 * (y 1).val = (y 1).val; rw [e1]; omega
theorem block10 (c : Dev nD) (t : Fin cfg0.N) : (iblk m c 10 t : Vec Ideal S1x256 .f32) = bRow (m ((c : Thread nD τ).loc main_arg7)) := by
  rw [← HostParts.V_main_v11 m c]
  funext y
  show V m c main_v11 (((cfg0.win 10).blk t).view.emb y) = V m c main_v11 y
  obtain ⟨-, -, -, -, -, -, -, -, -, -, ⟨e0, e1⟩, -⟩ := idx_facts t
  refine congrArg _ (funext fun a => Fin.ext ?_)
  match a with
  | ⟨0, _⟩ => show win0_10.index t (0 : Fin 2) * 1 + 1 * (y 0).val = (y 0).val; rw [e0]; omega
  | ⟨1, _⟩ => show win0_10.index t (1 : Fin 2) * 256 + 1 * (y 1).val = (y 1).val; rw [e1]; omega

/-- The result of the whole batch, from the arguments as launched. -/
abbrev result (c : Dev nD) : S65536x256.Idx → EReal :=
  gru (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- WHAT POINT t WRITES BACK is block t of the batch's result. -/
theorem flushed_eq (c : Dev nD) (t : Fin cfg0.N) :
    (dats m 0 c).flushed 11 t = ((cfg0.win 11).blk t).view.read (Elt Ideal) (result m c) := by
  rw [Value.flushed11]
  funext y
  obtain ⟨p, q, rfl⟩ : ∃ (p : Fin 2048) (q : Fin 256), y = ix2 p q := ⟨y 0, y 1, eq_ix2 y⟩
  show out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 p q) = result m c (((cfg0.win 11).blk t).view.emb (ix2 p q))
  refine (Block.stored (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  rw [inputBlock m c t, stateBlock m c t, block2 m c t, block3 m c t, block4 m c t, block5 m c t, block6 m c t, block7 m c t,
    block8 m c t, block9 m c t, block10 m c t, cell_rows]
  have he : ((cfg0.win 11).blk t).view.emb (ix2 p q) = ix2 (blockRow t p) q := by
    obtain ⟨-, -, -, -, -, -, -, -, -, -, -, e0, e1⟩ := idx_facts t
    funext a; apply Fin.ext
    match a with
    | ⟨0, _⟩ => show win0_11.index t (0 : Fin 2) * 2048 + 1 * p.val = t.val * 2048 + p.val; rw [e0]; omega
    | ⟨1, _⟩ => show win0_11.index t (1 : Fin 2) * 256 + 1 * q.val = q.val; rw [e1]; omega
  rw [he]
  rfl

/-- An index of the result is in point t's block iff its row is one of the block's 2048 rows. -/
theorem mem_blk (t : Fin cfg0.N) (i : S65536x256.Idx) :
    i ∈ ((cfg0.win 11).blk t).view.set ↔ ∀ a : Fin 2, win0_11.index t a * S2048x256.size a ≤ (i a).val ∧ (i a).val < win0_11.index t a * S2048x256.size a + S2048x256.size a := by
  show i ∈ ((View.whole main_v12).slice (win0_11.rect t)).set ↔ _
  rw [View.set_slice_whole, Rect.mem_set_unit]
  exact Iff.rfl

/-- Every index of the result is in some point's block: row r is in block r / 2048. -/
theorem covered (i : S65536x256.Idx) : ∃ t : Fin cfg0.N, (cfg0.win 11).flush t = true ∧ i ∈ ((cfg0.win 11).blk t).view.set := by
  have hi0 : (i 0).val < 65536 := (i 0).isLt
  have hi1 : (i 1).val < 256 := (i 1).isLt
  have hN : (i 0).val / 2048 < cfg0.N := by show _ < grid0.N; rw [N_0]; omega
  refine ⟨⟨(i 0).val / 2048, hN⟩, flush0_11 _, ?_⟩
  rw [mem_blk]
  obtain ⟨-, -, -, -, -, -, -, -, -, -, -, e0, e1⟩ := idx_facts ⟨(i 0).val / 2048, hN⟩
  intro a
  match a with
  | ⟨0, _⟩ => show win0_11.index _ (0 : Fin 2) * 2048 ≤ (i 0).val ∧ (i 0).val < win0_11.index _ (0 : Fin 2) * 2048 + 2048; rw [e0]; show (i 0).val / 2048 * 2048 ≤ (i 0).val ∧ (i 0).val < (i 0).val / 2048 * 2048 + 2048; omega
  | ⟨1, _⟩ => show win0_11.index _ (1 : Fin 2) * 256 ≤ (i 1).val ∧ (i 1).val < win0_11.index _ (1 : Fin 2) * 256 + 256; rw [e1]; omega

/-- THE ARRAY after the run is the batch's result. -/
theorem final (c : Dev nD) : (dats m 0 c).arrAt 11 cfg0.N = result m c :=
  (dats m 0 c).arrAt_eq_of_cover 11 (result m c) (fun t _ => flushed_eq m c t) covered

/-- The kernel's run: the result array holds `gru` of the arguments, the arguments are unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  THE REFERENCE, ENTRY BY ENTRY. The reference joins each input row with its state row into one row of width 384 and
  multiplies by the transposed weight: at row r and column j that is the sum over the 384 columns k of
  joined(r, k) · W(j, k). The first 128 columns of the joined row are the input row and the last 256 the state row, so
  the sum is the input part plus the state part of Cell.lean's affine map (`sum_columns`); the bias is spread down the
  batch. The clamps, the products with the state and the blend are entry by entry, so the reference's result is
  `gru` of its arguments.
-/
import proofs.«167779_j69947837383038_1_alg».proof.Proof.Gen.ReferenceIdeal.Read
import proofs.«167779_j69947837383038_1_alg».proof.Proof.Cell
import Idealize.ShloMosaic.Lib.Pipeline.Value

open scoped BigOperators

noncomputable section

namespace Cert.ReferenceIdeal.RefValue

open Cert.ReferenceIdeal Cert.ReferenceIdeal.Read Idealize.ShloMosaic Idealize.ShloMosaic.ValueIdx Cert.Gru

/-- A joined row at one of its first 128 columns: the input row there. -/
theorem joined_input (x : FVec Ideal S65536x128 .f32) (g : FVec Ideal S65536x256 .f32) (r : Fin 65536) (j : Fin 256) (k : Fin 128) :
    val_main_v0 (F := Ideal) x g (lidx_main_v2 (ix2 r j) (inCol k)) = x (ix2 r k) := by
  unfold val_main_v0
  exact concatenate_pair_apply_left 1 x g _ (lidx_main_v2 (ix2 r j) (inCol k)) rfl (ix2 r k) (fun b => match b with
    | ⟨0, _⟩ => rfl
    | ⟨1, _⟩ => rfl)

/-- A joined row at one of its last 256 columns: the state row there. -/
theorem joined_state (x : FVec Ideal S65536x128 .f32) (g : FVec Ideal S65536x256 .f32) (r : Fin 65536) (j : Fin 256) (k : Fin 256) :
    val_main_v0 (F := Ideal) x g (lidx_main_v2 (ix2 r j) (hidCol k)) = g (ix2 r k) := by
  unfold val_main_v0
  exact concatenate_pair_apply_right 1 x g _ (lidx_main_v2 (ix2 r j) (hidCol k)) rfl rfl (ix2 r k) (fun b => match b with
    | ⟨0, _⟩ => fun _ => rfl
    | ⟨1, _⟩ => fun h => absurd rfl h) (by show k.val + 128 = 128 + k.val; omega)

/-- The transposed weight at row k, column j of the product: W(j, k). -/
theorem weight_entry (W : FVec Ideal S256x384 .f32) (r : Fin 65536) (j : Fin 256) (k : Fin 384) :
    val_main_v1 (F := Ideal) W (ridx_main_v2 (ix2 r j) k) = W (ix2 j k) := by
  rw [val_main_v1_apply]
  exact congrArg W (funext fun a => match a with
    | ⟨0, _⟩ => rfl
    | ⟨1, _⟩ => rfl)

/-- ONE GATE'S PRE-ACTIVATION in the reference is the affine map of Cell.lean over the weight's two column ranges. -/
theorem gateLinear (x : FVec Ideal S65536x128 .f32) (g : FVec Ideal S65536x256 .f32) (W : FVec Ideal S256x384 .f32)
    (b : FVec Ideal S256 .f32) (r : Fin 65536) (j : Fin 256) :
    val_main_v5 (F := Ideal) x g W b (ix2 r j) = affine x g (wIn W) (wHid W) (bRow b) r j := by
  rw [val_main_v5_apply, val_main_v2_apply, val_main_v4_apply, val_main_v3_apply, sum_columns]
  simp only [joined_input, joined_state, weight_entry]
  exact congrArg₂ (fun (u v : EReal) => u + v) rfl (congrArg b (funext fun a => match a with | ⟨0, _⟩ => rfl))

/-- The reset gate times the state, as a matrix: entry (r, k) is the clamped pre-activation times h(r, k). -/
theorem resetState (x : FVec Ideal S65536x128 .f32) (h : FVec Ideal S65536x256 .f32) (W : FVec Ideal S256x384 .f32)
    (b : FVec Ideal S256 .f32) :
    val_main_v21 (F := Ideal) x h W b = fun i => hardSigmoid (affine x h (wIn W) (wHid W) (bRow b) (i 0) (i 1)) * h i := by
  funext i
  obtain ⟨r, k, rfl⟩ : ∃ (r : Fin 65536) (k : Fin 256), i = ix2 r k := ⟨i 0, i 1, eq_ix2 i⟩
  have hlin : val_main_v15 (F := Ideal) x h W b (ix2 r k) = affine x h (wIn W) (wHid W) (bRow b) r k := gateLinear x h W b r k
  simp only [val_main_v21_apply, val_main_v20_apply, val_main_call1_v4_apply, val_main_call1_v3_apply, val_main_cst_6_apply,
    val_main_call1_v2_apply, val_main_call1_v1_apply, val_main_call1_v0_apply, val_main_cst_5_apply, val_main_v19_apply,
    val_main_v17_apply, val_main_v18_apply, val_main_cst_4_apply, val_main_v16_apply, val_main_cst_3_apply, hlin]
  rfl

/-- THE REFERENCE'S RESULT at row r and column j is the cell of Cell.lean there. -/
theorem result_entry (x : FVec Ideal S65536x128 .f32) (h : FVec Ideal S65536x256 .f32) (Wz : FVec Ideal S256x384 .f32)
    (bz : FVec Ideal S256 .f32) (Wr : FVec Ideal S256x384 .f32) (br : FVec Ideal S256 .f32) (Wh : FVec Ideal S256x384 .f32)
    (bh : FVec Ideal S256 .f32) (r : Fin 65536) (j : Fin 256) :
    val_main_v33 (F := Ideal) x h Wz bz Wr br Wh bh (ix2 r j)
      = cell x h (wIn Wz) (wHid Wz) (wIn Wr) (wHid Wr) (wIn Wh) (wHid Wh) (bRow bz) (bRow br) (bRow bh) r j := by
  have hz := gateLinear x h Wz bz r j
  have hc : val_main_v27 (F := Ideal) x h Wr br Wh bh (ix2 r j)
      = affine x (val_main_v21 (F := Ideal) x h Wr br) (wIn Wh) (wHid Wh) (bRow bh) r j :=
    gateLinear x (val_main_v21 (F := Ideal) x h Wr br) Wh bh r j
  rw [resetState] at hc
  simp only [val_main_v33_apply, val_main_v29_apply, val_main_v32_apply, val_main_v31_apply, val_main_v30_apply, val_main_cst_9_apply,
    val_main_v28_apply, val_main_call2_v4_apply, val_main_call2_v3_apply, val_main_cst_8_apply, val_main_call2_v2_apply,
    val_main_call2_v1_apply, val_main_call2_v0_apply, val_main_cst_7_apply, val_main_v10_apply, val_main_call0_v4_apply,
    val_main_call0_v3_apply, val_main_cst_2_apply, val_main_call0_v2_apply, val_main_call0_v1_apply, val_main_call0_v0_apply,
    val_main_cst_1_apply, val_main_v9_apply, val_main_v7_apply, val_main_v8_apply, val_main_cst_0_apply, val_main_v6_apply,
    val_main_cst_apply, hz, hc]
  rfl

/-- THE REFERENCE'S RESULT is `gru` of its arguments. -/
theorem result_eq (x : FVec Ideal S65536x128 .f32) (h : FVec Ideal S65536x256 .f32) (Wz : FVec Ideal S256x384 .f32)
    (bz : FVec Ideal S256 .f32) (Wr : FVec Ideal S256x384 .f32) (br : FVec Ideal S256 .f32) (Wh : FVec Ideal S256x384 .f32)
    (bh : FVec Ideal S256 .f32) :
    val_main_v33 (F := Ideal) x h Wz bz Wr br Wh bh = gru x h Wz bz Wr br Wh bh := by
  funext i
  obtain ⟨r, j, rfl⟩ : ∃ (r : Fin 65536) (j : Fin 256), i = ix2 r j := ⟨i 0, i 1, eq_ix2 i⟩
  exact result_entry x h Wz bz Wr br Wh bh r j

end Cert.ReferenceIdeal.RefValue

end
-- ==== Proof.lean ====
/- One step of a gated recurrent cell on a batch of 65536 rows (input width 128, state width 256), computed by a kernel
   that walks the batch in 32 blocks of 2048 rows against the plain reference, both read on the extended reals.

   Each gate applies a weight W of 256 rows by 384 = 128 + 256 columns to the input row joined with the state row.
   The reference forms the joined row and takes one sum over its 384 columns; the kernel keeps the transposed weight
   cut in two and adds a sum over the 128 input columns to a sum over the 256 state columns. A sum over 384 columns
   is the sum over the first 128 plus the sum over the last 256 — addition on the extended reals is commutative and
   associative, so this needs no finiteness — and the clamps v ↦ min(1, max(0, v/6 + 1/2)) and v ↦ min(1, max(-1, v)),
   the products with the state and the blend z·h + (1 - z)·candidate are the same operations on both sides. Narrowing
   the matrix operands to sixteen bits is the identity on the extended reals.

   Proof/Cell.lean states the cell entry by entry and that it acts row by row; Proof/BlockValue.lean reads the block a
   grid point stores as the cell of the blocks it loaded; Proof/HostParts.lean reads the weight parts and bias rows the
   kernel is handed; Proof/KernelValue.lean tiles the 32 blocks into the whole result; Proof/RefValue.lean reads the
   reference entry by entry. The three frames are the generated ones; the idealization rewrote nothing. -/
import proofs.«167779_j69947837383038_1_alg».proof.Defs
import proofs.«167779_j69947837383038_1_alg».proof.Proof.Gen.Kernel
import proofs.«167779_j69947837383038_1_alg».proof.Proof.Gen.Kernel.Skeleton
import proofs.«167779_j69947837383038_1_alg».proof.Proof.Gen.Kernel.Launch
import proofs.«167779_j69947837383038_1_alg».proof.Proof.Gen.Kernel.Points
import proofs.«167779_j69947837383038_1_alg».proof.Proof.Gen.Kernel.Frame
import proofs.«167779_j69947837383038_1_alg».proof.Proof.Gen.KernelIdeal
import proofs.«167779_j69947837383038_1_alg».proof.Proof.Gen.KernelIdeal.Skeleton
import proofs.«167779_j69947837383038_1_alg».proof.Proof.Gen.KernelIdeal.Launch
import proofs.«167779_j69947837383038_1_alg».proof.Proof.Gen.KernelIdeal.Points
import proofs.«167779_j69947837383038_1_alg».proof.Proof.Gen.KernelIdeal.Frame
import proofs.«167779_j69947837383038_1_alg».proof.Proof.Gen.ReferenceIdeal
import proofs.«167779_j69947837383038_1_alg».proof.Proof.Gen.Pre_finite_inputs
import proofs.«167779_j69947837383038_1_alg».proof.Proof.Gen.KernelIdeal.Value
import proofs.«167779_j69947837383038_1_alg».proof.Proof.Gen.ReferenceIdeal.Run
import proofs.«167779_j69947837383038_1_alg».proof.Proof.Gen.ReferenceIdeal.Read
import proofs.«167779_j69947837383038_1_alg».proof.Proof.KernelValue
import proofs.«167779_j69947837383038_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments both programs end with `gru` of them in the result array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
